-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x1024 : Shape := ⟨3, ![2, 8192, 1024]⟩
abbrev S1024x128 : Shape := ⟨2, ![1024, 128]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel

variable [Facts]

def fn {F : FTy → Type} [FloatOps F] (main_arg0 : FVec F S2x8192x1024 .f32) (main_arg1 : IVec S1024x128 32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  main_v3
-- ==== Kernel.lean ====
abbrev S2x8192x1024 : Shape := ⟨3, ![2, 8192, 1024]⟩
abbrev S1024x128 : Shape := ⟨2, ![1024, 128]⟩
abbrev S8 : Shape := ⟨1, ![8]⟩
abbrev S_ : Shape := ⟨0, ![]⟩
abbrev S1024x128x1 : Shape := ⟨3, ![1024, 128, 1]⟩
abbrev S1x1x8 : Shape := ⟨3, ![1, 1, 8]⟩
abbrev S1024x128x8 : Shape := ⟨3, ![1024, 128, 8]⟩
abbrev S1024x1024 : Shape := ⟨2, ![1024, 1024]⟩
abbrev S16384x1024 : Shape := ⟨2, ![16384, 1024]⟩
abbrev S512x1024 : Shape := ⟨2, ![512, 1024]⟩

abbrev nBuf : Space → Nat
  | .hbm => 29
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S1024x128, .i32⟩
  | .hbm, ⟨2, _⟩ => ⟨S8, .i32⟩
  | .hbm, ⟨3, _⟩ => ⟨S_, .i32⟩
  | .hbm, ⟨4, _⟩ => ⟨S8, .i32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S1024x128x1, .i32⟩
  | .hbm, ⟨10, _⟩ => ⟨S1x1x8, .i32⟩
  | .hbm, ⟨11, _⟩ => ⟨S1024x128x8, .i32⟩
  | .hbm, ⟨12, _⟩ => ⟨S1024x128x8, .i32⟩
  | .hbm, ⟨13, _⟩ => ⟨S1024x128x8, .i32⟩
  | .hbm, ⟨14, _⟩ => ⟨S_, .i32⟩
  | .hbm, ⟨15, _⟩ => ⟨S1024x128x8, .i32⟩
  | .hbm, ⟨16, _⟩ => ⟨S1024x128x8, .i32⟩
  | .hbm, ⟨17, _⟩ => ⟨S_, .i32⟩
  | .hbm, ⟨18, _⟩ => ⟨S1024x128x8, .i32⟩
  | .hbm, ⟨19, _⟩ => ⟨S1024x128x8, .i32⟩
  | .hbm, ⟨20, _⟩ => ⟨S_, .i32⟩
  | .hbm, ⟨21, _⟩ => ⟨S1024x128x8, .i32⟩
  | .hbm, ⟨22, _⟩ => ⟨S1024x128x8, .i32⟩
  | .hbm, ⟨23, _⟩ => ⟨S1024x1024, .i32⟩
  | .hbm, ⟨24, _⟩ => ⟨S1024x1024, .i32⟩
  | .hbm, ⟨25, _⟩ => ⟨S1024x1024, .bf16⟩
  | .hbm, ⟨26, _⟩ => ⟨S16384x1024, .f32⟩
  | .hbm, ⟨27, _⟩ => ⟨S16384x1024, .f32⟩
  | .hbm, ⟨28, _⟩ => ⟨S2x8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S8 : S_.BroadcastsInDim S8 (![] : Fin 0 → Fin S8.rank)
  bcast_S1024x128_S1024x128x1_0_1 : S1024x128.BroadcastsInDim S1024x128x1 (![0, 1] : Fin 2 → Fin S1024x128x1.rank)
  bcast_S8_S1x1x8_2 : S8.BroadcastsInDim S1x1x8 (![2] : Fin 1 → Fin S1x1x8.rank)
  bcast_S1024x128x1_S1024x128x8_0_1_2 : S1024x128x1.BroadcastsInDim S1024x128x8 (![0, 1, 2] : Fin 3 → Fin S1024x128x8.rank)
  bcast_S1x1x8_S1024x128x8_0_1_2 : S1x1x8.BroadcastsInDim S1024x128x8 (![0, 1, 2] : Fin 3 → Fin S1024x128x8.rank)
  bcast_S_S1024x128x8 : S_.BroadcastsInDim S1024x128x8 (![] : Fin 0 → Fin S1024x128x8.rank)
  shapeCasts_S1024x128x8_S1024x1024 : S1024x128x8.ShapeCasts S1024x1024
  transposes_S1024x1024_S1024x1024_1_0 : S1024x1024.Transposes [1, 0] S1024x1024
  shapeCasts_S2x8192x1024_S16384x1024 : S2x8192x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S16384x1024_S2x8192x1024 : S16384x1024.ShapeCasts S2x8192x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v19) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x8192x1024 : Shape := ⟨3, ![2, 8192, 1024]⟩
abbrev S1024x128 : Shape := ⟨2, ![1024, 128]⟩
abbrev S8 : Shape := ⟨1, ![8]⟩
abbrev S_ : Shape := ⟨0, ![]⟩
abbrev S1024x128x1 : Shape := ⟨3, ![1024, 128, 1]⟩
abbrev S1x1x8 : Shape := ⟨3, ![1, 1, 8]⟩
abbrev S1024x128x8 : Shape := ⟨3, ![1024, 128, 8]⟩
abbrev S1024x1024 : Shape := ⟨2, ![1024, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x128, .i32⟩
  | .hbm, ⟨2, _⟩ => ⟨S8, .i32⟩
  | .hbm, ⟨3, _⟩ => ⟨S_, .i32⟩
  | .hbm, ⟨4, _⟩ => ⟨S8, .i32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S1024x128x1, .i32⟩
  | .hbm, ⟨10, _⟩ => ⟨S1x1x8, .i32⟩
  | .hbm, ⟨11, _⟩ => ⟨S1024x128x8, .i32⟩
  | .hbm, ⟨12, _⟩ => ⟨S1024x128x8, .i32⟩
  | .hbm, ⟨13, _⟩ => ⟨S1024x128x8, .i32⟩
  | .hbm, ⟨14, _⟩ => ⟨S_, .i32⟩
  | .hbm, ⟨15, _⟩ => ⟨S1024x128x8, .i32⟩
  | .hbm, ⟨16, _⟩ => ⟨S1024x128x8, .i32⟩
  | .hbm, ⟨17, _⟩ => ⟨S_, .i32⟩
  | .hbm, ⟨18, _⟩ => ⟨S1024x128x8, .i32⟩
  | .hbm, ⟨19, _⟩ => ⟨S1024x128x8, .i32⟩
  | .hbm, ⟨20, _⟩ => ⟨S_, .i32⟩
  | .hbm, ⟨21, _⟩ => ⟨S1024x128x8, .i32⟩
  | .hbm, ⟨22, _⟩ => ⟨S1024x128x8, .i32⟩
  | .hbm, ⟨23, _⟩ => ⟨S1024x1024, .i32⟩
  | .hbm, ⟨24, _⟩ => ⟨S1024x1024, .f32⟩
  | .hbm, ⟨25, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S1024x128_S1024x128x1_0_1 : S1024x128.BroadcastsInDim S1024x128x1 (![0, 1] : Fin 2 → Fin S1024x128x1.rank)
  bcast_S8_S1x1x8_2 : S8.BroadcastsInDim S1x1x8 (![2] : Fin 1 → Fin S1x1x8.rank)
  bcast_S1024x128x1_S1024x128x8_0_1_2 : S1024x128x1.BroadcastsInDim S1024x128x8 (![0, 1, 2] : Fin 3 → Fin S1024x128x8.rank)
  bcast_S1x1x8_S1024x128x8_0_1_2 : S1x1x8.BroadcastsInDim S1024x128x8 (![0, 1, 2] : Fin 3 → Fin S1024x128x8.rank)
  bcast_S_S1024x128x8 : S_.BroadcastsInDim S1024x128x8 (![] : Fin 0 → Fin S1024x128x8.rank)
  shapeCasts_S1024x128x8_S1024x1024 : S1024x128x8.ShapeCasts S1024x1024
  dot_S2x8192x1024_S1024x1024_S2x8192x1024_2_1_01_0_n_n_wf : DotDims.WF S2x8192x1024 S1024x1024 S2x8192x1024 [2] [1] [0, 1] [0] [] []

variable [Facts₀]

def dot_S2x8192x1024_S1024x1024_S2x8192x1024_2_1_01_0_n_n : DotDims S2x8192x1024 S1024x1024 S2x8192x1024 where
  lhsContracting := [2]
  rhsContracting := [1]
  lhsNonContracting := [0, 1]
  rhsNonContracting := [0]
  lhsBatch := []
  rhsBatch := []
  wf := dot_S2x8192x1024_S1024x1024_S2x8192x1024_2_1_01_0_n_n_wf

class Facts : Prop extends Facts₀ where

variable [Facts]
-- ==== Proof.Linear.lean ====
/-
  The linear layer with packed sign weights, as one function of its two arguments, and the two arrangements of it
  that the two programs compute.

  `x` is an array of extended reals of shape [2, 8192, 1024] and `w` an array of 32-bit words of shape
  [1024, 1024] (row `o` holds the weights of output feature `o`). The layer's value at `(b, s, o)` is
    `linear x w (b, s, o) = ∑ k < 1024, x (b, s, k) · toInt (w (o, k))`
  on the extended reals, a word read as the signed integer it denotes.

  One program flattens the two leading axes of `x` into 16384 rows, multiplies the [16384, 1024] matrix by the
  TRANSPOSED weight matrix converted to floats, and unflattens the product (`unflatten_flat`). A row-major reshape
  keeps positions, so row `b · 8192 + s` of the flattened array is row `(b, s)` of `x`; the transposed matrix at
  `(k, o)` is `w (o, k)`; a signed integer converts to the same real whatever the float format. So each entry of
  the unflattened product is the sum above, term by term: no law of the extended reals is used.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.BitLinear

open Idealize.ShloMosaic Idealize.ShloMosaic.ValueIdx

/-- The activations' shape, the same with its leading axes flattened, and the weight matrix's. -/
abbrev SX : Shape := ⟨3, ![2, 8192, 1024]⟩
abbrev SX2 : Shape := ⟨2, ![16384, 1024]⟩
abbrev SW : Shape := ⟨2, ![1024, 1024]⟩

/-- The layer: entry `(b, s, o)` is the sum over `k` of `x (b, s, k)` times the integer `w (o, k)`. -/
def linear (x : FVec Ideal SX .f32) (w : IVec SW 32) : FVec Ideal SX .f32 :=
  fun i => ∑ k : Fin 1024, x (ix3 (i 0) (i 1) k) * (((w (ix2 (i 2) k)).toInt : ℝ) : EReal)

/-- A matrix product of a [16384, 1024] matrix with a [1024, 1024] matrix, entry by entry. -/
def flat (x2 : FVec Ideal SX2 .f32) (wT : FVec Ideal SW .bf16) : FVec Ideal SX2 .f32 :=
  fun j => ∑ k : Fin 1024, x2 (ix2 (j 0) k) * wT (ix2 k (j 1))

/-- Row `b · 8192 + s` of the flattened activations is row `(b, s)` of the activations. -/
theorem flatten_apply (x : FVec Ideal SX .f32) (h : SX.ShapeCasts SX2) (b : Fin 2) (s : Fin 8192) (k : Fin 1024)
    (r : Fin 16384) (hr : r.val = b.val * 8192 + s.val) :
    shapeCast SX2 x h (ix2 r k) = x (ix3 b s k) := by
  refine shapeCast_apply x h (ix2 r k) (ix3 b s k) ?_
  rewrite [Shape.rowMajor_val_three, Shape.rowMajor_val_two]
  show (b.val * 8192 + s.val) * 1024 + k.val = r.val * 1024 + k.val
  rw [hr]

/-- The transposed weight matrix converted to floats reads, at `(k, o)`, the integer `w (o, k)`. -/
theorem weightT_apply (w : IVec SW 32) (ht : SW.Transposes [1, 0] SW) (k o : Fin 1024) :
    (sitofp .bf16 (transpose SW [1, 0] w ht) : FVec Ideal SW .bf16) (ix2 k o) = (((w (ix2 o k)).toInt : ℝ) : EReal) := by
  show FloatOps.sitofp (F := Ideal) .bf16 (transpose SW [1, 0] w ht (ix2 k o)) = _
  rw [transpose_ix2_apply w ht k o]
  rfl

/-- The flattened product, unflattened, is the layer. -/
theorem unflatten_flat (x : FVec Ideal SX .f32) (w : IVec SW 32) (h1 : SX.ShapeCasts SX2) (h2 : SX2.ShapeCasts SX)
    (ht : SW.Transposes [1, 0] SW) :
    shapeCast SX (flat (shapeCast SX2 x h1) (sitofp .bf16 (transpose SW [1, 0] w ht))) h2 = linear x w := by
  funext i
  obtain ⟨b, s, o, rfl⟩ : ∃ (b : Fin 2) (s : Fin 8192) (o : Fin 1024), i = ix3 b s o := ⟨i 0, i 1, i 2, eq_ix3 i⟩
  have hb : b.val < 2 := b.isLt
  have hs : s.val < 8192 := s.isLt
  let r : Fin 16384 := ⟨b.val * 8192 + s.val, by omega⟩
  refine (shapeCast_apply _ h2 (ix3 b s o) (ix2 r o) ?_).trans ?_
  · rewrite [Shape.rowMajor_val_three, Shape.rowMajor_val_two]
    show (b.val * 8192 + s.val) * 1024 + o.val = (b.val * 8192 + s.val) * 1024 + o.val
    rfl
  · show ∑ k : Fin 1024, shapeCast SX2 x h1 (ix2 r k) * (sitofp .bf16 (transpose SW [1, 0] w ht) : FVec Ideal SW .bf16) (ix2 k o)
        = ∑ k : Fin 1024, x (ix3 b s k) * (((w (ix2 o k)).toInt : ℝ) : EReal)
    refine Finset.sum_congr rfl fun k _ => ?_
    rw [flatten_apply x h1 b s k r rfl, weightT_apply w ht k o]

end Cert.BitLinear

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.KernelValue.lean ====
/-
  The kernel program's result as the linear layer.

  The program unpacks the packed words into a [1024, 1024] matrix of 32-bit words (`unpack`), transposes it and converts
  it to floats, flattens the activations to [16384, 1024], runs a matrix product over 32 blocks of 512 rows, and
  unflattens the product. Block `t` of the product's array is rows `512 t … 512 t + 511`; the body multiplies that
  block of rows of the flattened activations by the whole transposed weight matrix, into a zero accumulator. So what
  point `t` writes back is block `t` of ONE whole-array function, `flat` of the flattened activations and the
  transposed weights (`flushed_eq`); the 32 blocks tile the 16384 rows (`cover`), so the array ends holding that
  function (`product_final`); the reshape after the region unflattens it (`result_tail`); and the unflattened
  product is the layer (`Cert.BitLinear.unflatten_flat`).
-/
import proofs.«407280_j30124900614508_3_alg».proof.Proof.Gen.KernelIdeal.Frame
import proofs.«407280_j30124900614508_3_alg».proof.Proof.Linear
import proofs.«407280_j30124900614508_3_alg».proof.Proof.LibPlainMatmul
import Idealize.ShloMosaic.Lib.Pipeline.Value
import Idealize.ShloMosaic.Lib.Tactic
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-! ## The arrays the region finds -/

/-- The packed words unpacked: bit `7 - (k mod 8)` of word `(o, k / 8)`, doubled, less one, at `(o, k)`; written as the
    program's own chain of integer operations. Both programs apply the same chain, and only that is used of it. -/
def unpack (p : IVec S1024x128 32) : IVec S1024x1024 32 :=
  shapeCast S1024x1024
    (subi
      (muli
        (andi
          (Host.shrsi
            (broadcastInDim S1024x128x8 ![0, 1, 2] bcast_S1024x128x1_S1024x128x8_0_1_2
              (broadcastInDim S1024x128x1 ![0, 1] bcast_S1024x128_S1024x128x1_0_1 p))
            (broadcastInDim S1024x128x8 ![0, 1, 2] bcast_S1x1x8_S1024x128x8_0_1_2
              (broadcastInDim S1x1x8 ![2] bcast_S8_S1x1x8_2
                (addi (broadcastInDim S8 ![] bcast_S_S8 (constantI S_ 32 7#32))
                  (muli (broadcastInDim S8 ![] bcast_S_S8 (constantI S_ 32 4294967295#32)) (iotaInDim S8 32 0))))))
          (broadcastInDim S1024x128x8 ![] bcast_S_S1024x128x8 (constantI S_ 32 1#32)))
        (broadcastInDim S1024x128x8 ![] bcast_S_S1024x128x8 (constantI S_ 32 2#32)))
      (broadcastInDim S1024x128x8 ![] bcast_S_S1024x128x8 (constantI S_ 32 1#32)))
    shapeCasts_S1024x128x8_S1024x1024

/-- The two window arrays the body reads, and the two arguments, at their literal types. -/
abbrev rows (c : Dev nD) : FVec Ideal S16384x1024 .f32 := V m c main_v19
abbrev weightsT (c : Dev nD) : FVec Ideal S1024x1024 .bf16 := V m c main_v18
abbrev acts (c : Dev nD) : FVec Ideal S2x8192x1024 .f32 := m ((c : Thread nD τ).loc main_arg0)
abbrev packed (c : Dev nD) : IVec S1024x128 32 := m ((c : Thread nD τ).loc main_arg1)

/-- The weight window's array: the unpacked matrix transposed, converted to floats. -/
theorem weights_entry (c : Dev nD) :
    weightsT m c = sitofp .bf16 (transpose S1024x1024 [1, 0] (unpack (packed m c)) transposes_S1024x1024_S1024x1024_1_0) := by
  show StableHlo.after hostOps0 (fun b => m (c, b)) (Proc.devRef .tc main_v18) = _
  after_results
  rfl

/-- The activation window's array: the activations with their leading axes flattened. -/
theorem rows_entry (c : Dev nD) :
    rows m c = shapeCast S16384x1024 (acts m c) shapeCasts_S2x8192x1024_S16384x1024 := by
  show StableHlo.after hostOps0 (fun b => m (c, b)) (Proc.devRef .tc main_v19) = _
  after_results
  rfl

/-! ## The body's product at an index -/

theorem hz : (![0, 0] : Fin 2 → Nat) = fun _ => 0 := funext fun a => by fin_cases a <;> rfl

/-- The body's stored value at `(r, o)`: row `r` of the block of activations against column `o` of the weights. -/
theorem pay_apply (x0 : Vec Ideal S512x1024 .f32) (x1 : Vec Ideal S1024x1024 .bf16) (j : S512x1024.Idx) :
    k0_pay1 (F := Ideal) x0 x1 j = ∑ k : Fin 1024, x0 (ix2 (j 0) k) * x1 (ix2 k (j 1)) := by
  unfold k0_pay1
  rw [shapeCast_self, shapeCast_self]
  exact Cert.Lib.matmul_plain_zero_apply 512 1024 1024 none (truncf .bf16 x0 bitsLt_bf16_f32) x1 j

/-! ## From blocks to the array -/

/-- The whole product: the flattened activations times the transposed weights, as the region finds them. -/
abbrev product (c : Dev nD) : FVec Ideal S16384x1024 .f32 :=
  Cert.BitLinear.flat (rows m c) (weightsT m c)

/-- The index maps over the grid: the activations' and the product's windows are on block row `t`, column 0; the
    weights' window never moves. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed_eq (c : Dev nD) (t : Fin cfg0.N) :
    (dats m 0 c).flushed 2 t = ((cfg0.win 2).blk t).view.read (Elt Ideal) (product m c) := by
  show (cfg0.win 2).cut (grid0.coords t) ((dats m 0 c).after 2 t) = _
  rw [after0_2]
  unfold out0_2
  rw [View.canon_unit_zero hz]
  simp only [View.ld_unit_zero (S := S512x1024) hz, View.ld_unit_zero (S := S1024x1024) hz]
  obtain ⟨e0, e1, e2, e3, e4, e5⟩ := idx_facts t
  funext j
  refine (pay_apply (iblk m c 0 t) (iblk m c 1 t) j).trans ?_
  show _ = ∑ k : Fin 1024, rows m c (ix2 ((((cfg0.win 2).blk t).view.emb j) 0) k) * weightsT m c (ix2 k ((((cfg0.win 2).blk t).view.emb j) 1))
  refine Finset.sum_congr rfl fun k _ => ?_
  have hj0 : (j 0).val < 512 := (j 0).isLt
  have hj1 : (j 1).val < 1024 := (j 1).isLt
  have hk : k.val < 1024 := k.isLt
  have h0 : (iblk m c 0 t : Vec Ideal S512x1024 .f32) (ix2 (j 0) k) = rows m c (ix2 ((((cfg0.win 2).blk t).view.emb j) 0) k) := by
    show rows m c (((cfg0.win 0).blk t).view.emb (ix2 (j 0) k)) = _
    refine congrArg (rows m c) (funext fun a => Fin.ext ?_)
    match a with
    | ⟨0, _⟩ => show win0_0.index t (0 : Fin 2) * 512 + 1 * (j 0).val = win0_2.index t (0 : Fin 2) * 512 + 1 * (j 0).val; omega
    | ⟨1, _⟩ => show win0_0.index t (1 : Fin 2) * 1024 + 1 * k.val = k.val; omega
  have h1 : (iblk m c 1 t : Vec Ideal S1024x1024 .bf16) (ix2 k (j 1)) = weightsT m c (ix2 k ((((cfg0.win 2).blk t).view.emb j) 1)) := by
    show weightsT m c (((cfg0.win 1).blk t).view.emb (ix2 k (j 1))) = _
    refine congrArg (weightsT m c) (funext fun a => Fin.ext ?_)
    match a with
    | ⟨0, _⟩ => show win0_1.index t (0 : Fin 2) * 1024 + 1 * k.val = k.val; omega
    | ⟨1, _⟩ => show win0_1.index t (1 : Fin 2) * 1024 + 1 * (j 1).val = win0_2.index t (1 : Fin 2) * 1024 + 1 * (j 1).val; omega
  rw [h0, h1]

/-- An index of the product's array is in point `t`'s block iff each coordinate is in the block's range. -/
theorem mem_blk (t : Fin cfg0.N) (i : S16384x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v20).slice (win0_2.rect t)).set ↔ _
  rw [View.set_slice_whole, Rect.mem_set_unit]
  exact Iff.rfl

/-- Row `r` is in the block of point `r / 512`: the 32 blocks tile the array. -/
theorem cover (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  have hN : cfg0.N = 32 := N_0
  let t : Fin cfg0.N := ⟨(i 0).val / 512, by rw [hN]; omega⟩
  have ht : t.val = (i 0).val / 512 := rfl
  obtain ⟨e0, e1, e2, e3, e4, e5⟩ := idx_facts t
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The product's array after the run is the whole product. -/
theorem product_final (c : Dev nD) : (dats m 0 c).arrAt 2 cfg0.N = product m c :=
  (dats m 0 c).arrAt_eq_of_cover 2 (product m c) (fun t _ => flushed_eq m c t) (cover)

/-! ## The reshape after the region, and the run -/

/-- The program's result: the product's array unflattened. -/
theorem result_tail (c : Dev nD) :
    Pipeline.afterTail₀ cfgs (dats m) 0 (V0 m) [hostOps1] c main_v21
      = (shapeCast S2x8192x1024 (product m c) shapeCasts_S16384x1024_S2x8192x1024 : FVec Ideal S2x8192x1024 .f32) := by
  unfold Pipeline.afterTail₀
  show StableHlo.after hostOps1 _ (Proc.devRef .tc main_v21) = _
  after_results
  have hw : Pipeline.withArrays (cfgs 0).spec c (V0 m c) (fun w => (dats m 0 c).arrAt w (cfgs 0).N) (Proc.devRef .tc main_v20) = product m c :=
    (Pipeline.withArrays_arr spec0 launch0.win.arr_inj c _ _ 2).trans (product_final m c)
  rw [hw]
  rfl

/-- The program's result is the layer of the activations and the unpacked matrix. -/
theorem result_eq (c : Dev nD) :
    Pipeline.afterTail₀ cfgs (dats m) 0 (V0 m) [hostOps1] c main_v21
      = Cert.BitLinear.linear (acts m c) (unpack (packed m c)) :=
  (result_tail m c).trans (by
    show shapeCast S2x8192x1024 (Cert.BitLinear.flat (rows m c) (weightsT m c)) shapeCasts_S16384x1024_S2x8192x1024 = _
    rw [rows_entry, weights_entry]
    exact Cert.BitLinear.unflatten_flat (acts m c) (unpack (packed m c)) _ _ _)

/-- The run, read: the result array ends at the layer of the arguments, the arguments unchanged. -/
theorem run : θ_run defs (onTc (τ := τ) (main (F := Ideal))) ⟨m, fun _ => 0, ρ⟩ fun r => ∀ c : Dev nD,
      r.2.mem ((c.tc : Thread nD τ).loc main_v21) = Cert.BitLinear.linear (acts m c) (unpack (packed m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v21 (Pipeline.mem_restRefs_of main_v21 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Hand

end
-- ==== Proof.RefValue.lean ====
/-
  The reference program's result as the linear layer.

  The reference unpacks the packed words into a [1024, 1024] matrix of 32-bit words, converts it to floats and
  contracts axis 2 of the activations with axis 1 of that matrix. Read at an index `(b, s, o)` the contraction is
  the sum over `k` of `x (b, s, k)` times the converted word at `(o, k)`, and at the ideal values a word converts
  to the signed integer it denotes: the layer `linear` of the activations and the unpacked matrix, term by term.
-/
import proofs.«407280_j30124900614508_3_alg».proof.Proof.Gen.ReferenceIdeal.Read
import proofs.«407280_j30124900614508_3_alg».proof.Proof.Linear

noncomputable section

namespace Cert.ReferenceIdeal.RefValue

open Cert.ReferenceIdeal Cert.ReferenceIdeal.Gen Cert.ReferenceIdeal.Read
open Idealize.ShloMosaic Idealize.ShloMosaic.ValueIdx

/-- The reference's result is the layer of the activations and the unpacked weight matrix. -/
theorem result_eq (x : (⟨S2x8192x1024, .f32⟩ : BufTy).Contents (Elt Ideal)) (p : (⟨S1024x128, .i32⟩ : BufTy).Contents (Elt Ideal)) :
    val_main_v18 (F := Ideal) x p = Cert.BitLinear.linear x (val_main_v16 (F := Ideal) p) := by
  funext i
  rw [val_main_v18_apply]
  show _ = ∑ k : Fin 1024, x (ix3 (i 0) (i 1) k) * (((val_main_v16 (F := Ideal) p (ix2 (i 2) k)).toInt : ℝ) : EReal)
  refine Finset.sum_congr rfl fun k _ => ?_
  have el : lidx_main_v18 i k = ix3 (i 0) (i 1) k :=
    funext fun a => Fin.ext (by match a with | ⟨0, _⟩ => rfl | ⟨1, _⟩ => rfl | ⟨2, _⟩ => rfl)
  have er : ridx_main_v18 i k = ix2 (i 2) k :=
    funext fun a => Fin.ext (by match a with | ⟨0, _⟩ => rfl | ⟨1, _⟩ => rfl)
  rw [el, er]
  rfl

end Cert.ReferenceIdeal.RefValue

end
-- ==== Proof.lean ====
/-
  A linear layer whose weights are sign bits packed eight to a word: a Pallas kernel against its jnp reference, equal
  over the extended reals.

  Both programs unpack the packed words into the same [1024, 1024] matrix `w` of 32-bit words (entries ±1), by the
  same chain of integer operations. The reference converts `w` to floats and contracts the last axis of the
  activations `x` ([2, 8192, 1024]) with the last axis of `w`. The kernel transposes `w`, converts it, flattens `x` to
  [16384, 1024], multiplies block of 512 rows by block into a zero accumulator, and unflattens. At the ideal values
  a word converts to the integer it denotes whatever the float format and a change of format is the identity, so
  both results are, at `(b, s, o)`,
      `∑ k < 1024, x (b, s, k) · toInt (w (o, k))`,
  the SAME finite sum term by term (`Cert.BitLinear.linear`): no rearrangement, and no use of finiteness.
  The kernel's side is read off its frame run (Proof/KernelValue.lean), the reference's off its run read one
  operation at a time (Proof/RefValue.lean); the idealization rewrote nothing, so `preserves` is trivial.
-/
import proofs.«407280_j30124900614508_3_alg».proof.Defs
import proofs.«407280_j30124900614508_3_alg».proof.Proof.Gen.Kernel
import proofs.«407280_j30124900614508_3_alg».proof.Proof.Gen.Kernel.Skeleton
import proofs.«407280_j30124900614508_3_alg».proof.Proof.Gen.Kernel.Launch
import proofs.«407280_j30124900614508_3_alg».proof.Proof.Gen.Kernel.Points
import proofs.«407280_j30124900614508_3_alg».proof.Proof.Gen.Kernel.Frame
import proofs.«407280_j30124900614508_3_alg».proof.Proof.Gen.KernelIdeal
import proofs.«407280_j30124900614508_3_alg».proof.Proof.Gen.KernelIdeal.Skeleton
import proofs.«407280_j30124900614508_3_alg».proof.Proof.Gen.KernelIdeal.Launch
import proofs.«407280_j30124900614508_3_alg».proof.Proof.Gen.KernelIdeal.Points
import proofs.«407280_j30124900614508_3_alg».proof.Proof.Gen.KernelIdeal.Frame
import proofs.«407280_j30124900614508_3_alg».proof.Proof.Gen.ReferenceIdeal
import proofs.«407280_j30124900614508_3_alg».proof.Proof.Gen.Pre_finite_inputs
import proofs.«407280_j30124900614508_3_alg».proof.Proof.Gen.ReferenceIdeal.Run
import proofs.«407280_j30124900614508_3_alg».proof.Proof.Gen.ReferenceIdeal.Read
import proofs.«407280_j30124900614508_3_alg».proof.Proof.Linear
import proofs.«407280_j30124900614508_3_alg».proof.Proof.KernelValue
import proofs.«407280_j30124900614508_3_alg».proof.Proof.RefValue
import Idealize.ShloMosaic.Adequacy
import Idealize.ShloMosaic.Init

noncomputable section

namespace Cert.Proof

open Idealize.ShloMosaic Idealize.SL.Sem

/-- The two programs unpack the packed words by the same chain of integer operations: one matrix. -/
theorem unpack_eq (p : IVec Cert.KernelIdeal.S1024x128 32) :
    Cert.ReferenceIdeal.Read.val_main_v16 (F := Ideal) p = Cert.KernelIdeal.Hand.unpack p := rfl

/-- Each program terminates without a fault and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the layer of the activations and the unpacked
    matrix in their result arrays. -/
theorem algebraic : Cert.algebraic_KernelIdeal_ReferenceIdeal := by
  intro m ρ m' ρ' _ hagree
  refine ⟨fun c => Cert.BitLinear.linear (Cert.KernelIdeal.Hand.acts m c) (Cert.KernelIdeal.Hand.unpack (Cert.KernelIdeal.Hand.packed m c)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v18_eq, Cert.ReferenceIdeal.RefValue.result_eq, unpack_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
